-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x8000000 : Shape := ⟨2, ![2, 8000000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S500000x1 .f32) (main_arg1 : IVec S2x8000000 32) (main_arg2 : FVec F S1x16 .f32) (main_arg3 : FVec F S16 .f32) (main_arg4 : FVec F S16x2 .f32) (main_arg5 : FVec F S2 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S500000x1 : Shape := ⟨2, ![500000, 1]⟩
abbrev S2x8000000 : Shape := ⟨2, ![2, 8000000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x8000000 : Shape := ⟨2, ![1, 8000000]⟩
abbrev S8000000 : Shape := ⟨1, ![8000000]⟩
abbrev S500000 : Shape := ⟨1, ![500000]⟩
abbrev S8500000 : Shape := ⟨1, ![8500000]⟩
abbrev S_ : Shape := ⟨0, ![]⟩
abbrev S8500000x1 : Shape := ⟨2, ![8500000, 1]⟩
abbrev S500000x16 : Shape := ⟨2, ![500000, 16]⟩
abbrev S10000x1 : Shape := ⟨2, ![10000, 1]⟩
abbrev S10000x16 : Shape := ⟨2, ![10000, 16]⟩
abbrev S8500000x16 : Shape := ⟨2, ![8500000, 16]⟩
abbrev S500000x2 : Shape := ⟨2, ![500000, 2]⟩
abbrev S10000x2 : Shape := ⟨2, ![10000, 2]⟩
abbrev S8500000x2 : Shape := ⟨2, ![8500000, 2]⟩
abbrev S1x2 : Shape := ⟨2, ![1, 2]⟩
abbrev S10000 : Shape := ⟨1, ![10000]⟩

abbrev nBuf : Space → Nat
  | .hbm => 84
  | .vmem => 20
  | .smem => 0
  | _ => 0

abbrev bufTy : (tb : Table) → Fin (tcTables nBuf tb) → BufTy
  | .hbm, ⟨0, _⟩ => ⟨S500000x1, .f32⟩
  | .hbm, ⟨1, _⟩ => ⟨S2x8000000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x8000000, .i32⟩
  | .hbm, ⟨7, _⟩ => ⟨S8000000, .i32⟩
  | .hbm, ⟨8, _⟩ => ⟨S1x8000000, .i32⟩
  | .hbm, ⟨9, _⟩ => ⟨S8000000, .i32⟩
  | .hbm, ⟨10, _⟩ => ⟨S500000, .i32⟩
  | .hbm, ⟨11, _⟩ => ⟨S8500000, .i32⟩
  | .hbm, ⟨12, _⟩ => ⟨S8500000, .i32⟩
  | .hbm, ⟨13, _⟩ => ⟨S_, .f32⟩
  | .hbm, ⟨14, _⟩ => ⟨S8500000, .f32⟩
  | .hbm, ⟨15, _⟩ => ⟨S_, .f32⟩
  | .hbm, ⟨16, _⟩ => ⟨S500000, .f32⟩
  | .hbm, ⟨17, _⟩ => ⟨S8500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S8500000, .i32⟩
  | .hbm, ⟨29, _⟩ => ⟨S8500000, .i1⟩
  | .hbm, ⟨30, _⟩ => ⟨S_, .i32⟩
  | .hbm, ⟨31, _⟩ => ⟨S8500000, .i32⟩
  | .hbm, ⟨32, _⟩ => ⟨S8500000, .i32⟩
  | .hbm, ⟨33, _⟩ => ⟨S8500000, .i32⟩
  | .hbm, ⟨34, _⟩ => ⟨S8500000x1, .i32⟩
  | .hbm, ⟨35, _⟩ => ⟨S8500000, .f32⟩
  | .hbm, ⟨36, _⟩ => ⟨S_, .i32⟩
  | .hbm, ⟨37, _⟩ => ⟨S8500000, .i32⟩
  | .hbm, ⟨38, _⟩ => ⟨S8500000, .i1⟩
  | .hbm, ⟨39, _⟩ => ⟨S_, .i32⟩
  | .hbm, ⟨40, _⟩ => ⟨S8500000, .i32⟩
  | .hbm, ⟨41, _⟩ => ⟨S8500000, .i32⟩
  | .hbm, ⟨42, _⟩ => ⟨S8500000, .i32⟩
  | .hbm, ⟨43, _⟩ => ⟨S8500000x1, .i32⟩
  | .hbm, ⟨44, _⟩ => ⟨S8500000, .f32⟩
  | .hbm, ⟨45, _⟩ => ⟨S8500000, .f32⟩
  | .hbm, ⟨46, _⟩ => ⟨S500000x16, .f32⟩
  | .hbm, ⟨47, _⟩ => ⟨S_, .i32⟩
  | .hbm, ⟨48, _⟩ => ⟨S8500000, .i32⟩
  | .hbm, ⟨49, _⟩ => ⟨S8500000, .i1⟩
  | .hbm, ⟨50, _⟩ => ⟨S_, .i32⟩
  | .hbm, ⟨51, _⟩ => ⟨S8500000, .i32⟩
  | .hbm, ⟨52, _⟩ => ⟨S8500000, .i32⟩
  | .hbm, ⟨53, _⟩ => ⟨S8500000, .i32⟩
  | .hbm, ⟨54, _⟩ => ⟨S8500000x1, .i32⟩
  | .hbm, ⟨55, _⟩ => ⟨S8500000x16, .f32⟩
  | .hbm, ⟨56, _⟩ => ⟨S8500000x1, .f32⟩
  | .hbm, ⟨57, _⟩ => ⟨S8500000x16, .f32⟩
  | .hbm, ⟨58, _⟩ => ⟨S8500000x16, .f32⟩
  | .hbm, ⟨59, _⟩ => ⟨S_, .f32⟩
  | .hbm, ⟨60, _⟩ => ⟨S500000x16, .f32⟩
  | .hbm, ⟨61, _⟩ => ⟨S8500000x1, .i32⟩
  | .hbm, ⟨62, _⟩ => ⟨S500000x16, .f32⟩
  | .hbm, ⟨63, _⟩ => ⟨S1x16, .f32⟩
  | .hbm, ⟨64, _⟩ => ⟨S500000x16, .f32⟩
  | .hbm, ⟨65, _⟩ => ⟨S500000x2, .f32⟩
  | .hbm, ⟨66, _⟩ => ⟨S_, .i32⟩
  | .hbm, ⟨67, _⟩ => ⟨S8500000, .i32⟩
  | .hbm, ⟨68, _⟩ => ⟨S8500000, .i1⟩
  | .hbm, ⟨69, _⟩ => ⟨S_, .i32⟩
  | .hbm, ⟨70, _⟩ => ⟨S8500000, .i32⟩
  | .hbm, ⟨71, _⟩ => ⟨S8500000, .i32⟩
  | .hbm, ⟨72, _⟩ => ⟨S8500000, .i32⟩
  | .hbm, ⟨73, _⟩ => ⟨S8500000x1, .i32⟩
  | .hbm, ⟨74, _⟩ => ⟨S8500000x2, .f32⟩
  | .hbm, ⟨75, _⟩ => ⟨S8500000x1, .f32⟩
  | .hbm, ⟨76, _⟩ => ⟨S8500000x2, .f32⟩
  | .hbm, ⟨77, _⟩ => ⟨S8500000x2, .f32⟩
  | .hbm, ⟨78, _⟩ => ⟨S_, .f32⟩
  | .hbm, ⟨79, _⟩ => ⟨S500000x2, .f32⟩
  | .hbm, ⟨80, _⟩ => ⟨S8500000x1, .i32⟩
  | .hbm, ⟨81, _⟩ => ⟨S500000x2, .f32⟩
  | .hbm, ⟨82, _⟩ => ⟨S1x2, .f32⟩
  | .hbm, ⟨83, _⟩ => ⟨S500000x2, .f32⟩
  | .local _ .vmem, ⟨0, _⟩ => ⟨S10000x1, .f32⟩
  | .local _ .vmem, ⟨1, _⟩ => ⟨S10000x1, .f32⟩
  | .local _ .vmem, ⟨2, _⟩ => ⟨S1x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  concatenates_S8000000_S500000_S8500000_d0 : Shape.Concatenates [S8000000, S500000] S8500000 0
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S10000x16_S10000x16_0_0 : ∀ a, (![0, 0] : Fin 2 → Nat) a + S10000x16.size a ≤ S10000x16.size a
  h_S10000x16 : 0 < S10000x16.numel
  bcast_S8500000x1_S8500000x16_0_1 : S8500000x1.BroadcastsInDim S8500000x16 (![0, 1] : Fin 2 → Fin S8500000x16.rank)
  bcast_S_S500000x16 : S_.BroadcastsInDim S500000x16 (![] : Fin 0 → Fin S500000x16.rank)
  shapeCasts_S16_S1x16 : S16.ShapeCasts S1x16
  shapeCasts_S10000x16_S10000x16 : S10000x16.ShapeCasts S10000x16
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S8500000x1_S8500000x2_0_1 : S8500000x1.BroadcastsInDim S8500000x2 (![0, 1] : Fin 2 → Fin S8500000x2.rank)
  bcast_S_S500000x2 : S_.BroadcastsInDim S500000x2 (![] : Fin 0 → Fin S500000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S10000x1_S1x16_S10000x16_1_0_0_1_n_n_wf : DotDims.WF S10000x1 S1x16 S10000x16 [1] [0] [0] [1] [] []
  gather_S500000x16_S8500000x1_S8500000x16_1_0_n_n_0_1_116_wf : GatherDims.WF S500000x16 S8500000x1 S8500000x16 [1] [0] [] [0] [] 1 ![1, 16]
  scatter_S500000x16_S8500000x1_S8500000x16_1_0_0_1_wf : ScatterDims.WF S500000x16 S8500000x1 S8500000x16 [1] [0] [0] 1
  dot_S10000x16_S16x2_S10000x2_1_0_0_1_n_n_wf : DotDims.WF S10000x16 S16x2 S10000x2 [1] [0] [0] [1] [] []
  gather_S500000x2_S8500000x1_S8500000x2_1_0_n_n_0_1_12_wf : GatherDims.WF S500000x2 S8500000x1 S8500000x2 [1] [0] [] [0] [] 1 ![1, 2]
  scatter_S500000x2_S8500000x1_S8500000x2_1_0_0_1_wf : ScatterDims.WF S500000x2 S8500000x1 S8500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S500000x1.size a
  hwx0_0 : ∀ i : grid0.Coords, EltTy.bits .f32 = 32 ∨ (Rect.block (s := S500000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S500000x16.size a
  hwx1_2 : ∀ i : grid1.Coords, EltTy.bits .f32 = 32 ∨ (Rect.block (s := S500000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S500000x16.size a
  hwx2_0 : ∀ i : grid2.Coords, EltTy.bits .f32 = 32 ∨ (Rect.block (s := S500000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S500000x2.size a
  hwx2_2 : ∀ i : grid2.Coords, EltTy.bits .f32 = 32 ∨ (Rect.block (s := S500000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S500000x2.size a
  hwx3_0 : ∀ i : grid3.Coords, EltTy.bits .f32 = 32 ∨ (Rect.block (s := S500000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S500000x2.size a
  hwx3_2 : ∀ i : grid3.Coords, EltTy.bits .f32 = 32 ∨ (Rect.block (s := S500000x2) S10000x2.size (cc3_transform_2 i) (hinb3_2 i)).WholeWords (EltTy.packing .f32)

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S500000x16_S8500000x1_S8500000x16_1_0_n_n_0_1_116 : GatherDims S500000x16 S8500000x1 S8500000x16 where
  offsetDims := [1]
  collapsedSliceDims := [0]
  operandBatchingDims := []
  startIndicesBatchingDims := []
  startIndexMap := [0]
  indexVectorDim := 1
  sliceSizes := ![1, 16]
  wf := gather_S500000x16_S8500000x1_S8500000x16_1_0_n_n_0_1_116_wf
def scatter_S500000x16_S8500000x1_S8500000x16_1_0_0_1 : ScatterDims S500000x16 S8500000x1 S8500000x16 where
  updateWindowDims := [1]
  insertedWindowDims := [0]
  scatterDimsToOperandDims := [0]
  indexVectorDim := 1
  wf := scatter_S500000x16_S8500000x1_S8500000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S500000x2_S8500000x1_S8500000x2_1_0_n_n_0_1_12 : GatherDims S500000x2 S8500000x1 S8500000x2 where
  offsetDims := [1]
  collapsedSliceDims := [0]
  operandBatchingDims := []
  startIndicesBatchingDims := []
  startIndexMap := [0]
  indexVectorDim := 1
  sliceSizes := ![1, 2]
  wf := gather_S500000x2_S8500000x1_S8500000x2_1_0_n_n_0_1_12_wf
def scatter_S500000x2_S8500000x1_S8500000x2_1_0_0_1 : ScatterDims S500000x2 S8500000x1 S8500000x2 where
  updateWindowDims := [1]
  insertedWindowDims := [0]
  scatterDimsToOperandDims := [0]
  indexVectorDim := 1
  wf := scatter_S500000x2_S8500000x1_S8500000x2_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S500000x1 : Shape := ⟨2, ![500000, 1]⟩
abbrev S2x8000000 : Shape := ⟨2, ![2, 8000000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x8000000 : Shape := ⟨2, ![1, 8000000]⟩
abbrev S8000000 : Shape := ⟨1, ![8000000]⟩
abbrev S500000 : Shape := ⟨1, ![500000]⟩
abbrev S8500000 : Shape := ⟨1, ![8500000]⟩
abbrev S_ : Shape := ⟨0, ![]⟩
abbrev S8500000x1 : Shape := ⟨2, ![8500000, 1]⟩
abbrev S500000x16 : Shape := ⟨2, ![500000, 16]⟩
abbrev S8500000x16 : Shape := ⟨2, ![8500000, 16]⟩
abbrev S500000x2 : Shape := ⟨2, ![500000, 2]⟩
abbrev S8500000x2 : Shape := ⟨2, ![8500000, 2]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S500000x1, .f32⟩
  | 1 => ⟨S2x8000000, .i32⟩
  | 2 => ⟨S1x16, .f32⟩
  | 3 => ⟨S16, .f32⟩
  | 4 => ⟨S16x2, .f32⟩
  | 5 => ⟨S2, .f32⟩
  | 6 => ⟨S1x8000000, .i32⟩
  | 7 => ⟨S8000000, .i32⟩
  | 8 => ⟨S1x8000000, .i32⟩
  | 9 => ⟨S8000000, .i32⟩
  | 10 => ⟨S500000, .i32⟩
  | 11 => ⟨S8500000, .i32⟩
  | 12 => ⟨S8500000, .i32⟩
  | 13 => ⟨S_, .f32⟩
  | 14 => ⟨S8500000, .f32⟩
  | 15 => ⟨S_, .f32⟩
  | 16 => ⟨S500000, .f32⟩
  | 17 => ⟨S8500000x1, .i32⟩
  | 18 => ⟨S500000, .f32⟩
  | 19 => ⟨S_, .f32⟩
  | 20 => ⟨S500000, .f32⟩
  | 21 => ⟨S500000, .i1⟩
  | 22 => ⟨S500000, .f32⟩
  | 23 => ⟨S_, .f32⟩
  | 24 => ⟨S_, .f32⟩
  | 25 => ⟨S500000, .f32⟩
  | 26 => ⟨S500000, .f32⟩
  | 27 => ⟨S_, .i32⟩
  | 28 => ⟨S8500000, .i32⟩
  | 29 => ⟨S8500000, .i1⟩
  | 30 => ⟨S_, .i32⟩
  | 31 => ⟨S8500000, .i32⟩
  | 32 => ⟨S8500000, .i32⟩
  | 33 => ⟨S8500000, .i32⟩
  | 34 => ⟨S8500000x1, .i32⟩
  | 35 => ⟨S8500000, .f32⟩
  | 36 => ⟨S_, .i32⟩
  | 37 => ⟨S8500000, .i32⟩
  | 38 => ⟨S8500000, .i1⟩
  | 39 => ⟨S_, .i32⟩
  | 40 => ⟨S8500000, .i32⟩
  | 41 => ⟨S8500000, .i32⟩
  | 42 => ⟨S8500000, .i32⟩
  | 43 => ⟨S8500000x1, .i32⟩
  | 44 => ⟨S8500000, .f32⟩
  | 45 => ⟨S8500000, .f32⟩
  | 46 => ⟨S500000x16, .f32⟩
  | 47 => ⟨S_, .i32⟩
  | 48 => ⟨S8500000, .i32⟩
  | 49 => ⟨S8500000, .i1⟩
  | 50 => ⟨S_, .i32⟩
  | 51 => ⟨S8500000, .i32⟩
  | 52 => ⟨S8500000, .i32⟩
  | 53 => ⟨S8500000, .i32⟩
  | 54 => ⟨S8500000x1, .i32⟩
  | 55 => ⟨S8500000x16, .f32⟩
  | 56 => ⟨S8500000x1, .f32⟩
  | 57 => ⟨S8500000x16, .f32⟩
  | 58 => ⟨S8500000x16, .f32⟩
  | 59 => ⟨S_, .f32⟩
  | 60 => ⟨S500000x16, .f32⟩
  | 61 => ⟨S8500000x1, .i32⟩
  | 62 => ⟨S500000x16, .f32⟩
  | 63 => ⟨S1x16, .f32⟩
  | 64 => ⟨S500000x16, .f32⟩
  | 65 => ⟨S500000x16, .f32⟩
  | 66 => ⟨S_, .f32⟩
  | 67 => ⟨S500000x16, .f32⟩
  | 68 => ⟨S500000x16, .f32⟩
  | 69 => ⟨S500000, .i32⟩
  | 70 => ⟨S8500000, .i32⟩
  | 71 => ⟨S8500000, .i32⟩
  | 72 => ⟨S_, .f32⟩
  | 73 => ⟨S8500000, .f32⟩
  | 74 => ⟨S_, .f32⟩
  | 75 => ⟨S500000, .f32⟩
  | 76 => ⟨S8500000x1, .i32⟩
  | 77 => ⟨S500000, .f32⟩
  | 78 => ⟨S_, .f32⟩
  | 79 => ⟨S500000, .f32⟩
  | 80 => ⟨S500000, .i1⟩
  | 81 => ⟨S500000, .f32⟩
  | 82 => ⟨S_, .f32⟩
  | 83 => ⟨S_, .f32⟩
  | 84 => ⟨S500000, .f32⟩
  | 85 => ⟨S500000, .f32⟩
  | 86 => ⟨S_, .i32⟩
  | 87 => ⟨S8500000, .i32⟩
  | 88 => ⟨S8500000, .i1⟩
  | 89 => ⟨S_, .i32⟩
  | 90 => ⟨S8500000, .i32⟩
  | 91 => ⟨S8500000, .i32⟩
  | 92 => ⟨S8500000, .i32⟩
  | 93 => ⟨S8500000x1, .i32⟩
  | 94 => ⟨S8500000, .f32⟩
  | 95 => ⟨S_, .i32⟩
  | 96 => ⟨S8500000, .i32⟩
  | 97 => ⟨S8500000, .i1⟩
  | 98 => ⟨S_, .i32⟩
  | 99 => ⟨S8500000, .i32⟩
  | 100 => ⟨S8500000, .i32⟩
  | 101 => ⟨S8500000, .i32⟩
  | 102 => ⟨S8500000x1, .i32⟩
  | 103 => ⟨S8500000, .f32⟩
  | 104 => ⟨S8500000, .f32⟩
  | 105 => ⟨S500000x2, .f32⟩
  | 106 => ⟨S_, .i32⟩
  | 107 => ⟨S8500000, .i32⟩
  | 108 => ⟨S8500000, .i1⟩
  | 109 => ⟨S_, .i32⟩
  | 110 => ⟨S8500000, .i32⟩
  | 111 => ⟨S8500000, .i32⟩
  | 112 => ⟨S8500000, .i32⟩
  | 113 => ⟨S8500000x1, .i32⟩
  | 114 => ⟨S8500000x2, .f32⟩
  | 115 => ⟨S8500000x1, .f32⟩
  | 116 => ⟨S8500000x2, .f32⟩
  | 117 => ⟨S8500000x2, .f32⟩
  | 118 => ⟨S_, .f32⟩
  | 119 => ⟨S500000x2, .f32⟩
  | 120 => ⟨S8500000x1, .i32⟩
  | 121 => ⟨S500000x2, .f32⟩
  | 122 => ⟨S1x2, .f32⟩
  | 123 => ⟨S500000x2, .f32⟩
  | 124 => ⟨S500000x2, .f32⟩
  | 125 => ⟨S_, .f32⟩
  | 126 => ⟨S500000, .f32⟩
  | 127 => ⟨S_, .f32⟩
  | _ => ⟨S500000x1, .f32⟩

abbrev hbmTy0_1 (i : Nat) : BufTy := match i % 128 with
  | 0 => ⟨S500000, .f32⟩
  | 1 => ⟨S500000, .f32⟩
  | 2 => ⟨S500000x1, .f32⟩
  | 3 => ⟨S500000x2, .f32⟩
  | 4 => ⟨S500000x2, .f32⟩
  | 5 => ⟨S500000x2, .f32⟩
  | 6 => ⟨S_, .f32⟩
  | 7 => ⟨S500000, .f32⟩
  | 8 => ⟨S500000x1, .f32⟩
  | 9 => ⟨S500000x1, .f32⟩
  | 10 => ⟨S500000x2, .f32⟩
  | 11 => ⟨S500000x2, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  concatenates_S8000000_S500000_S8500000_d0 : Shape.Concatenates [S8000000, S500000] S8500000 0
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S8500000x1_S8500000x16_0_1 : S8500000x1.BroadcastsInDim S8500000x16 (![0, 1] : Fin 2 → Fin S8500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S8500000x1_S8500000x2_0_1 : S8500000x1.BroadcastsInDim S8500000x2 (![0, 1] : Fin 2 → Fin S8500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S500000_d1 : S500000x2.ReducesTo [1] S500000
  h_S_ : 0 < S_.numel
  bcast_S500000_S500000x1_0 : S500000.BroadcastsInDim S500000x1 (![0] : Fin 1 → Fin S500000x1.rank)
  bcast_S500000x1_S500000x2_0_1 : S500000x1.BroadcastsInDim S500000x2 (![0, 1] : Fin 2 → Fin S500000x2.rank)
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S500000x1_S1x16_S500000x16_1_0_0_1_n_n_wf : DotDims.WF S500000x1 S1x16 S500000x16 [1] [0] [0] [1] [] []
  gather_S500000x16_S8500000x1_S8500000x16_1_0_n_n_0_1_116_wf : GatherDims.WF S500000x16 S8500000x1 S8500000x16 [1] [0] [] [0] [] 1 ![1, 16]
  scatter_S500000x16_S8500000x1_S8500000x16_1_0_0_1_wf : ScatterDims.WF S500000x16 S8500000x1 S8500000x16 [1] [0] [0] 1
  dot_S500000x16_S16x2_S500000x2_1_0_0_1_n_n_wf : DotDims.WF S500000x16 S16x2 S500000x2 [1] [0] [0] [1] [] []
  gather_S500000x2_S8500000x1_S8500000x2_1_0_n_n_0_1_12_wf : GatherDims.WF S500000x2 S8500000x1 S8500000x2 [1] [0] [] [0] [] 1 ![1, 2]
  scatter_S500000x2_S8500000x1_S8500000x2_1_0_0_1_wf : ScatterDims.WF S500000x2 S8500000x1 S8500000x2 [1] [0] [0] 1

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S500000x1_S1x16_S500000x16_1_0_0_1_n_n : DotDims S500000x1 S1x16 S500000x16 where
  lhsContracting := [1]
  rhsContracting := [0]
  lhsNonContracting := [0]
  rhsNonContracting := [1]
  lhsBatch := []
  rhsBatch := []
  wf := dot_S500000x1_S1x16_S500000x16_1_0_0_1_n_n_wf
def gather_S500000x16_S8500000x1_S8500000x16_1_0_n_n_0_1_116 : GatherDims S500000x16 S8500000x1 S8500000x16 where
  offsetDims := [1]
  collapsedSliceDims := [0]
  operandBatchingDims := []
  startIndicesBatchingDims := []
  startIndexMap := [0]
  indexVectorDim := 1
  sliceSizes := ![1, 16]
  wf := gather_S500000x16_S8500000x1_S8500000x16_1_0_n_n_0_1_116_wf
def scatter_S500000x16_S8500000x1_S8500000x16_1_0_0_1 : ScatterDims S500000x16 S8500000x1 S8500000x16 where
  updateWindowDims := [1]
  insertedWindowDims := [0]
  scatterDimsToOperandDims := [0]
  indexVectorDim := 1
  wf := scatter_S500000x16_S8500000x1_S8500000x16_1_0_0_1_wf
def dot_S500000x16_S16x2_S500000x2_1_0_0_1_n_n : DotDims S500000x16 S16x2 S500000x2 where
  lhsContracting := [1]
  rhsContracting := [0]
  lhsNonContracting := [0]
  rhsNonContracting := [1]
  lhsBatch := []
  rhsBatch := []
  wf := dot_S500000x16_S16x2_S500000x2_1_0_0_1_n_n_wf
def gather_S500000x2_S8500000x1_S8500000x2_1_0_n_n_0_1_12 : GatherDims S500000x2 S8500000x1 S8500000x2 where
  offsetDims := [1]
  collapsedSliceDims := [0]
  operandBatchingDims := []
  startIndicesBatchingDims := []
  startIndexMap := [0]
  indexVectorDim := 1
  sliceSizes := ![1, 2]
  wf := gather_S500000x2_S8500000x1_S8500000x2_1_0_n_n_0_1_12_wf
def scatter_S500000x2_S8500000x1_S8500000x2_1_0_0_1 : ScatterDims S500000x2 S8500000x1 S8500000x2 where
  updateWindowDims := [1]
  insertedWindowDims := [0]
  scatterDimsToOperandDims := [0]
  indexVectorDim := 1
  wf := scatter_S500000x2_S8500000x1_S8500000x2_1_0_0_1_wf

class Facts : Prop extends Facts₀ where

variable [Facts]
-- ==== Proof.StretchNorm.lean ====
/-
  The host operations before the first region, read against the reference's stages. Both programs build the edge
  lists with a self-loop appended per node (sources and destinations), count each node's in-degree by a scatter-add of
  ones, take its inverse square root where the degree is positive, and multiply the two gathered factors per edge: the
  normalisation coefficient. The kernel's program computes these three arrays once; the reference computes them once
  per layer, by the same operations. So at the first region's entry the kernel's three buffers hold the reference's
  stages of either layer, whatever the float values are.
-/
import proofs.«140899_j68204080660970_1_alg».proof.Proof.Gen.KernelIdeal.Frame
import proofs.«140899_j68204080660970_1_alg».proof.Proof.RefRead

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29 val_main_v49 val_main_v50 val_main_v73)

variable {F : FTy → Type} [FloatOps F]
variable (m : (ℓ : Loc nD τ sig) → Buf (Elt F) ℓ) (ρ : Dev nD → PrngReg) (c : Dev nD)

/-! ## The edge sources with the self-loops appended -/

set_option maxHeartbeats 4000000 in
theorem sources : W3 m ρ c (Proc.devRef .tc main_v5) = val_main_v5 (F := F) (m ((c : Thread nD τ).loc main_arg1)) := by
  dsimp only [W3, W2, W1]
  simp only [hostOps0_2, hostOps0_1, hostOps0]
  after_results
  rfl

set_option maxHeartbeats 4000000 in
theorem sources' : W3 m ρ c (Proc.devRef .tc main_v5) = val_main_v49 (F := F) (m ((c : Thread nD τ).loc main_arg1)) := by
  dsimp only [W3, W2, W1]
  simp only [hostOps0_2, hostOps0_1, hostOps0]
  after_results
  rfl

/-! ## The edge destinations with the self-loops appended -/

set_option maxHeartbeats 4000000 in
theorem dests : W3 m ρ c (Proc.devRef .tc main_v6) = val_main_v6 (F := F) (m ((c : Thread nD τ).loc main_arg1)) := by
  dsimp only [W3, W2, W1]
  simp only [hostOps0_2, hostOps0_1, hostOps0]
  after_results
  rfl

set_option maxHeartbeats 4000000 in
theorem dests' : W3 m ρ c (Proc.devRef .tc main_v6) = val_main_v50 (F := F) (m ((c : Thread nD τ).loc main_arg1)) := by
  dsimp only [W3, W2, W1]
  simp only [hostOps0_2, hostOps0_1, hostOps0]
  after_results
  rfl

/-! ## The normalisation coefficient of every edge -/

set_option maxHeartbeats 16000000 in
theorem coeff : W3 m ρ c (Proc.devRef .tc main_v29) = val_main_v29 (F := F) (m ((c : Thread nD τ).loc main_arg1)) := by
  dsimp only [W3, W2, W1]
  simp only [hostOps0_2, hostOps0_1, hostOps0]
  after_results
  rfl

set_option maxHeartbeats 16000000 in
theorem coeff' : W3 m ρ c (Proc.devRef .tc main_v29) = val_main_v73 (F := F) (m ((c : Thread nD τ).loc main_arg1)) := by
  dsimp only [W3, W2, W1]
  simp only [hostOps0_2, hostOps0_1, hostOps0]
  after_results
  rfl

end Cert.KernelIdeal.Stretch

end
-- ==== Proof.StretchAgg.lean ====
/-
  The host operations between the regions, read against the reference's stages. After each matrix product both
  programs gather the product's rows at the edge sources, scale each gathered row by the edge's normalisation
  coefficient and scatter-add the rows to the edge destinations; the kernel's program then reshapes the layer's bias
  vector to one row. Given what the product's buffer holds, the aggregated array is the reference's stage whatever
  the float values are; the edge lists and the coefficients are the ones computed before the first region, which no
  later operation and no region writes.
-/
import proofs.«140899_j68204080660970_1_alg».proof.Proof.StretchNorm

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29 val_main_v49 val_main_v50 val_main_v73
  val_main_v30 val_main_v43 val_main_v74 val_main_v87)

variable {F : FTy → Type} [FloatOps F]
variable (m : (ℓ : Loc nD τ sig) → Buf (Elt F) ℓ) (ρ : Dev nD → PrngReg) (c : Dev nD)

/-! ## Argument arrays at the boundaries where a region or a reshape reads them -/

set_option maxHeartbeats 4000000 in
theorem entry_arg0 : W3 m ρ c (Proc.devRef .tc main_arg0) = m ((c : Thread nD τ).loc main_arg0) := by
  dsimp only [W3, W2, W1]
  simp only [hostOps0_2, hostOps0_1, hostOps0]
  after_results
  try rfl

set_option maxHeartbeats 4000000 in
theorem entry_arg2 : W3 m ρ c (Proc.devRef .tc main_arg2) = m ((c : Thread nD τ).loc main_arg2) := by
  dsimp only [W3, W2, W1]
  simp only [hostOps0_2, hostOps0_1, hostOps0]
  after_results
  try rfl

set_option maxHeartbeats 4000000 in
theorem entry_arg3 : W3 m ρ c (Proc.devRef .tc main_arg3) = m ((c : Thread nD τ).loc main_arg3) := by
  dsimp only [W3, W2, W1]
  simp only [hostOps0_2, hostOps0_1, hostOps0]
  after_results
  try rfl

set_option maxHeartbeats 4000000 in
theorem entry_arg4 : W3 m ρ c (Proc.devRef .tc main_arg4) = m ((c : Thread nD τ).loc main_arg4) := by
  dsimp only [W3, W2, W1]
  simp only [hostOps0_2, hostOps0_1, hostOps0]
  after_results
  try rfl

set_option maxHeartbeats 4000000 in
theorem entry_arg5 : W3 m ρ c (Proc.devRef .tc main_arg5) = m ((c : Thread nD τ).loc main_arg5) := by
  dsimp only [W3, W2, W1]
  simp only [hostOps0_2, hostOps0_1, hostOps0]
  after_results
  try rfl

/-- The second stretch of host operations writes none of the buffers computed before the first region, nor an argument. -/
theorem keep_hostOps1 (b : Ref sig .tc)
    (hb : b = main_v5 ∨ b = main_v6 ∨ b = main_v29 ∨ b = main_arg4 ∨ b = main_arg5) :
    W5 m ρ c (Proc.devRef .tc b) = W4 m ρ c (Proc.devRef .tc b) := by
  dsimp only [W5]
  simp only [hostOps1]
  rcases hb with rfl | rfl | rfl | rfl | rfl <;> after_results <;> try rfl

/-- At the first region's exit. -/
theorem exit0_sources : W4 m ρ c (Proc.devRef .tc main_v5) = val_main_v5 (F := F) (m ((c : Thread nD τ).loc main_arg1)) :=
  (W4_of_ne m ρ c main_v5 (by decide)).trans (sources m ρ c)
theorem exit0_dests : W4 m ρ c (Proc.devRef .tc main_v6) = val_main_v6 (F := F) (m ((c : Thread nD τ).loc main_arg1)) :=
  (W4_of_ne m ρ c main_v6 (by decide)).trans (dests m ρ c)
theorem exit0_coeff : W4 m ρ c (Proc.devRef .tc main_v29) = val_main_v29 (F := F) (m ((c : Thread nD τ).loc main_arg1)) :=
  (W4_of_ne m ρ c main_v29 (by decide)).trans (coeff m ρ c)
theorem exit0_arg3 : W4 m ρ c (Proc.devRef .tc main_arg3) = m ((c : Thread nD τ).loc main_arg3) :=
  (W4_of_ne m ρ c main_arg3 (by decide)).trans (entry_arg3 m ρ c)

/-- At the third region's exit: a buffer written before the first region, or an argument no region before it reads
    through a window, is as it was at the first region's entry. -/
theorem exit2_of_entry (b : Ref sig .tc)
    (hb : b = main_v5 ∨ b = main_v6 ∨ b = main_v29 ∨ b = main_arg5) :
    W7 m ρ c (Proc.devRef .tc b) = W3 m ρ c (Proc.devRef .tc b) := by
  have hb' : b = main_v5 ∨ b = main_v6 ∨ b = main_v29 ∨ b = main_arg4 ∨ b = main_arg5 := by
    rcases hb with h | h | h | h
    · exact .inl h
    · exact .inr (.inl h)
    · exact .inr (.inr (.inl h))
    · exact .inr (.inr (.inr (.inr h)))
  have h7 : W7 m ρ c (Proc.devRef .tc b) = W6 m ρ c (Proc.devRef .tc b) :=
    W7_of_ne m ρ c b (by rcases hb with rfl | rfl | rfl | rfl <;> decide)
  have h6 : W6 m ρ c (Proc.devRef .tc b) = W5 m ρ c (Proc.devRef .tc b) :=
    W6_of_ne m ρ c b (by rcases hb with rfl | rfl | rfl | rfl <;> decide)
  have h4 : W4 m ρ c (Proc.devRef .tc b) = W3 m ρ c (Proc.devRef .tc b) :=
    W4_of_ne m ρ c b (by rcases hb with rfl | rfl | rfl | rfl <;> decide)
  exact h7.trans (h6.trans ((keep_hostOps1 m ρ c b hb').trans h4))

/-! ## The first layer's aggregation -/

set_option maxHeartbeats 16000000 in
/-- Given the first product, the aggregated array before the bias is the reference's. -/
theorem aggregated_in
    (h30 : W4 m ρ c (Proc.devRef .tc main_v30)
      = val_main_v30 (F := F) (m ((c : Thread nD τ).loc main_arg0)) (m ((c : Thread nD τ).loc main_arg2))) :
    W5 m ρ c (Proc.devRef .tc main_v43)
      = val_main_v43 (F := F) (m ((c : Thread nD τ).loc main_arg0)) (m ((c : Thread nD τ).loc main_arg1)) (m ((c : Thread nD τ).loc main_arg2)) := by
  dsimp only [W5]
  simp only [hostOps1]
  after_results
  rw [h30, exit0_sources, exit0_dests, exit0_coeff]
  rfl

set_option maxHeartbeats 4000000 in
/-- The first layer's bias vector as one row. -/
theorem bias_row_in : W5 m ρ c (Proc.devRef .tc main_v44)
    = shapeCast S1x16 (m ((c : Thread nD τ).loc main_arg3)) shapeCasts_S16_S1x16 := by
  dsimp only [W5]
  simp only [hostOps1]
  after_results
  rw [exit0_arg3]
  rfl

/-! ## The second layer's aggregation -/

set_option maxHeartbeats 16000000 in
/-- Given the second product, the aggregated array before the bias is the reference's. -/
theorem aggregated_out
    (h46 : W7 m ρ c (Proc.devRef .tc main_v46)
      = val_main_v74 (F := F) (m ((c : Thread nD τ).loc main_arg0)) (m ((c : Thread nD τ).loc main_arg1)) (m ((c : Thread nD τ).loc main_arg2))
          (m ((c : Thread nD τ).loc main_arg3)) (m ((c : Thread nD τ).loc main_arg4))) :
    W8 m ρ c (Proc.devRef .tc main_v59)
      = val_main_v87 (F := F) (m ((c : Thread nD τ).loc main_arg0)) (m ((c : Thread nD τ).loc main_arg1)) (m ((c : Thread nD τ).loc main_arg2))
          (m ((c : Thread nD τ).loc main_arg3)) (m ((c : Thread nD τ).loc main_arg4)) := by
  dsimp only [W8]
  simp only [hostOps3]
  after_results
  rw [h46, exit2_of_entry m ρ c main_v5 (.inl rfl), exit2_of_entry m ρ c main_v6 (.inr (.inl rfl)),
    exit2_of_entry m ρ c main_v29 (.inr (.inr (.inl rfl))), sources', dests', coeff']
  rfl

set_option maxHeartbeats 4000000 in
/-- The second layer's bias vector as one row. -/
theorem bias_row_out : W8 m ρ c (Proc.devRef .tc main_v60)
    = shapeCast S1x2 (m ((c : Thread nD τ).loc main_arg5)) shapeCasts_S2_S1x2 := by
  dsimp only [W8]
  simp only [hostOps3]
  after_results
  rw [exit2_of_entry m ρ c main_arg5 (.inr (.inr (.inr rfl))), entry_arg5]
  rfl

end Cert.KernelIdeal.Stretch

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.RegionMatmulIn.lean ====
/-
  The first pipelined region: the 500000 x 1 array of node features times the 1 x 16 weight array. The grid has
  50 points; point t stages rows 10000 t .. 10000 t + 9999 of the features and the whole weight array, multiplies
  them on the matrix unit into a zero accumulator (the operands narrowed first, which changes nothing over the
  extended reals) and writes back the same rows of the product. So the result array ends holding, at (r, c), the
  sum over the inner index k of features (r, k) times weights (k, c).
-/
import proofs.«140899_j68204080660970_1_alg».proof.Proof.Gen.KernelIdeal.Frame
import proofs.«140899_j68204080660970_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.MatmulIn

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The two input arrays as the region finds them, at their literal types. -/
abbrev feats (c : Dev nD) : FVec Ideal S500000x1 .f32 := V c main_arg0
abbrev weights (c : Dev nD) : FVec Ideal S1x16 .f32 := V c main_arg2

/-- The region's result as one function of its two input arrays: the matrix product, entry by entry. -/
def product (x : FVec Ideal S500000x1 .f32) (w : FVec Ideal S1x16 .f32) : FVec Ideal S500000x16 .f32 :=
  fun i => ∑ k : Fin 1, x (ix2 (i 0) k) * w (ix2 k (i 1))

/-- The body's stored value at an index of the block: the product of the staged rows with the weights. -/
theorem stored_apply (x0 : Vec Ideal S10000x1 .f32) (x1 : Vec Ideal S1x16 .f32) (j : S10000x16.Idx) :
    k0_pay1 x0 x1 j = ∑ k : Fin 1, x0 (ix2 (j 0) k) * x1 (ix2 k (j 1)) := by
  unfold k0_pay1
  exact Cert.PlainDot.matmul_zero_apply (M := 10000) (K := 1) (N := 16) none
    (truncf .bf16 x0 bitsLt_bf16_f32) (truncf .bf16 x1 bitsLt_bf16_f32) j

/-- The index maps over the grid: the feature window and the result window sit at block (t, 0), the weights at (0, 0). -/
theorem where_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem block_of_rows : ∀ q : Fin 50, ∃ t : Fin cfg0.N, win0_2.index t = ![q.val, 0] :=
  (by decide +kernel : ∀ q : Fin 50, ∃ t : Fin grid0.N, win0_2.index t = ![q.val, 0])

/-- What point t writes back is block t of `product` of the arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S10000x1) origin, View.ld_unit_zero (S := S1x16) origin]
  obtain ⟨e0, e1, e2, e3, e4, e5⟩ := where_blocks t
  funext j
  refine (stored_apply (iblk0 V c 0 t) (iblk0 V c 1 t) j).trans ?_
  show (∑ k : Fin 1, feats V c (((cfg0.win 0).blk t).view.emb (ix2 (j 0) k)) * weights V c (((cfg0.win 1).blk t).view.emb (ix2 k (j 1))))
     = ∑ k : Fin 1, feats V c (ix2 ((((cfg0.win 2).blk t).view.emb j) 0) k) * weights V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 1 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 1 + 1 * k.val = k.val; omega
    | ⟨1, _⟩ => show win0_1.index t (1 : Fin 2) * 16 + 1 * (j 1).val = win0_2.index t (1 : Fin 2) * 16 + 1 * (j 1).val; omega
  exact congrArg₂ (fun u v : EReal => u * v) (congrArg (feats V c) h0) (congrArg (weights V c) h1)

/-- An index of the result array lies in point t's block iff each coordinate lies in the block's range. -/
theorem mem_block (t : Fin cfg0.N) (i : S500000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- The blocks tile the result array: row r lies in the block of point r / 10000. -/
theorem covered (i : S500000x16.Idx) : ∃ t : Fin cfg0.N, (cfg0.win 2).flush t = true ∧ i ∈ ((cfg0.win 2).blk t).view.set := by
  have hi0 : (i 0).val < 500000 := (i 0).isLt
  have hi1 : (i 1).val < 16 := (i 1).isLt
  obtain ⟨t, ht⟩ := block_of_rows ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The result array after the region. -/
theorem result (c : Dev nD) : (dat0 V c).arrAt 2 cfg0.N = product (V c main_arg0) (V c main_arg2) :=
  (dat0 V c).arrAt_eq_of_cover 2 _ (fun t _ => flushed_eq V c t) covered

end Cert.KernelIdeal.MatmulIn

end
-- ==== Proof.RegionBiasRelu.lean ====
/-
  The second pipelined region: a row of biases added to every row of a 500000 x 16 array, then the rectifier.
  The grid has 50 points; point t stages rows 10000 t .. 10000 t + 9999 of the array and the whole one-row bias
  array, and writes back the same rows of the result. So whatever the region finds in its two input arrays, its
  result array ends holding, at (r, k), the maximum of (input (r, k) + bias (0, k)) and the value of the zero word.
-/
import proofs.«140899_j68204080660970_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The two input arrays as the region finds them, at their literal types. -/
abbrev data (c : Dev nD) : FVec Ideal S500000x16 .f32 := V c main_v43
abbrev bias (c : Dev nD) : FVec Ideal S1x16 .f32 := V c main_v44

/-- The region's result as one function of its two input arrays. -/
def rectified (a : FVec Ideal S500000x16 .f32) (b : FVec Ideal S1x16 .f32) : FVec Ideal S500000x16 .f32 :=
  fun i => max (a i + b (ix2 (0 : Fin 1) (i 1))) (Ideal.ofBits .f32 0x00000000#32)

/-- The body's stored value at an index of the block: the block's entry plus the bias of its column, rectified. -/
theorem stored_apply (x0 : Vec Ideal S10000x16 .f32) (x1 : Vec Ideal S1x16 .f32) (j : S10000x16.Idx) :
    k1_pay1 x0 x1 j = max (x0 j + x1 (ix2 (0 : Fin 1) (j 1))) (Ideal.ofBits .f32 0x00000000#32) := by
  obtain ⟨p, q, rfl⟩ : ∃ (p : Fin 10000) (q : Fin 16), j = ix2 p q := ⟨j 0, j 1, eq_ix2 j⟩
  unfold k1_pay1
  simp only [shapeCast_self]
  rw [maximumf_apply, addf_apply, broadcast_apply, broadcastTo_1b_ab_apply]
  rfl

/-- The index maps over the grid: the data window and the result window sit at block (t, 0), the bias window at (0, 0). -/
theorem where_blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem block_of_rows : ∀ q : Fin 50, ∃ t : Fin cfg1.N, win1_2.index t = ![q.val, 0] :=
  (by decide +kernel : ∀ q : Fin 50, ∃ t : Fin grid1.N, win1_2.index t = ![q.val, 0])

/-- What point t writes back is block t of `rectified` of the arrays as the region finds them. -/
theorem flushed_eq (c : Dev nD) (t : Fin cfg1.N) :
    (dat1 V c).flushed 2 t = ((cfg1.win 2).blk t).view.read (Elt Ideal) (rectified (V c main_v43) (V c main_v44)) := by
  show (cfg1.win 2).cut (grid1.coords t) ((dat1 V c).after 2 t) = _
  rw [after1_2]
  unfold out1_2
  rw [View.canon_unit_zero origin]
  simp only [View.ld_unit_zero (S := S10000x16) origin, View.ld_unit_zero (S := S1x16) origin]
  obtain ⟨e0, e1, e2, e3, e4, e5⟩ := where_blocks t
  funext j
  refine (stored_apply (iblk1 V c 0 t) (iblk1 V c 1 t) j).trans ?_
  show max (data V c (((cfg1.win 0).blk t).view.emb j) + bias V c (((cfg1.win 1).blk t).view.emb (ix2 (0 : Fin 1) (j 1)))) _
     = max (data V c (((cfg1.win 2).blk t).view.emb j) + bias V c (ix2 (0 : Fin 1) ((((cfg1.win 2).blk t).view.emb j) 1))) _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  rw [h0, h1]
  rfl

/-- An index of the result array lies in point t's block iff each coordinate lies in the block's range. -/
theorem mem_block (t : Fin cfg1.N) (i : S500000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- The blocks tile the result array: row r lies in the block of point r / 10000. -/
theorem covered (i : S500000x16.Idx) : ∃ t : Fin cfg1.N, (cfg1.win 2).flush t = true ∧ i ∈ ((cfg1.win 2).blk t).view.set := by
  have hi0 : (i 0).val < 500000 := (i 0).isLt
  have hi1 : (i 1).val < 16 := (i 1).isLt
  obtain ⟨t, ht⟩ := block_of_rows ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The result array after the region. -/
theorem result (c : Dev nD) : (dat1 V c).arrAt 2 cfg1.N = rectified (V c main_v43) (V c main_v44) :=
  (dat1 V c).arrAt_eq_of_cover 2 _ (fun t _ => flushed_eq V c t) covered

end Cert.KernelIdeal.BiasRelu

end
-- ==== Proof.RegionMatmulOut.lean ====
/-
  The third pipelined region: the 500000 x 16 array of hidden features times the 16 x 2 weight array. The grid has
  50 points; point t stages rows 10000 t .. 10000 t + 9999 of the features and the whole weight array, multiplies
  them on the matrix unit into a zero accumulator (the operands narrowed first, which changes nothing over the
  extended reals) and writes back the same rows of the product. So the result array ends holding, at (r, c), the
  sum over the inner index k of features (r, k) times weights (k, c).
-/
import proofs.«140899_j68204080660970_1_alg».proof.Proof.Gen.KernelIdeal.Frame
import proofs.«140899_j68204080660970_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.MatmulOut

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The two input arrays as the region finds them, at their literal types. -/
abbrev hidden (c : Dev nD) : FVec Ideal S500000x16 .f32 := V c main_v45
abbrev weights (c : Dev nD) : FVec Ideal S16x2 .f32 := V c main_arg4

/-- The region's result as one function of its two input arrays: the matrix product, entry by entry. -/
def product (x : FVec Ideal S500000x16 .f32) (w : FVec Ideal S16x2 .f32) : FVec Ideal S500000x2 .f32 :=
  fun i => ∑ k : Fin 16, x (ix2 (i 0) k) * w (ix2 k (i 1))

/-- The body's stored value at an index of the block: the product of the staged rows with the weights. -/
theorem stored_apply (x0 : Vec Ideal S10000x16 .f32) (x1 : Vec Ideal S16x2 .f32) (j : S10000x2.Idx) :
    k2_pay1 x0 x1 j = ∑ k : Fin 16, x0 (ix2 (j 0) k) * x1 (ix2 k (j 1)) := by
  unfold k2_pay1
  simp only [shapeCast_self]
  exact Cert.PlainDot.matmul_zero_apply (M := 10000) (K := 16) (N := 2) none
    (truncf .bf16 x0 bitsLt_bf16_f32) (truncf .bf16 x1 bitsLt_bf16_f32) j

/-- The index maps over the grid: the feature window and the result window sit at block (t, 0), the weights at (0, 0). -/
theorem where_blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem block_of_rows : ∀ q : Fin 50, ∃ t : Fin cfg2.N, win2_2.index t = ![q.val, 0] :=
  (by decide +kernel : ∀ q : Fin 50, ∃ t : Fin grid2.N, win2_2.index t = ![q.val, 0])

/-- What point t writes back is block t of `product` of the arrays as the region finds them. -/
theorem flushed_eq (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero origin]
  simp only [View.ld_unit_zero (S := S10000x16) origin, View.ld_unit_zero (S := S16x2) origin]
  obtain ⟨e0, e1, e2, e3, e4, e5⟩ := where_blocks t
  funext j
  refine (stored_apply (iblk2 V c 0 t) (iblk2 V c 1 t) j).trans ?_
  show (∑ k : Fin 16, hidden V c (((cfg2.win 0).blk t).view.emb (ix2 (j 0) k)) * weights V c (((cfg2.win 1).blk t).view.emb (ix2 k (j 1))))
     = ∑ k : Fin 16, hidden V c (ix2 ((((cfg2.win 2).blk t).view.emb j) 0) k) * weights V c (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 16 + 1 * k.val = k.val; omega
    | ⟨1, _⟩ => show win2_1.index t (1 : Fin 2) * 2 + 1 * (j 1).val = win2_2.index t (1 : Fin 2) * 2 + 1 * (j 1).val; omega
  exact congrArg₂ (fun u v : EReal => u * v) (congrArg (hidden V c) h0) (congrArg (weights V c) h1)

/-- An index of the result array lies in point t's block iff each coordinate lies in the block's range. -/
theorem mem_block (t : Fin cfg2.N) (i : S500000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v46).slice (win2_2.rect t)).set ↔ _
  rw [View.set_slice_whole, Rect.mem_set_unit]
  exact Iff.rfl

/-- The blocks tile the result array: row r lies in the block of point r / 10000. -/
theorem covered (i : S500000x2.Idx) : ∃ t : Fin cfg2.N, (cfg2.win 2).flush t = true ∧ i ∈ ((cfg2.win 2).blk t).view.set := by
  have hi0 : (i 0).val < 500000 := (i 0).isLt
  have hi1 : (i 1).val < 2 := (i 1).isLt
  obtain ⟨t, ht⟩ := block_of_rows ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

/-- The result array after the region. -/
theorem result (c : Dev nD) : (dat2 V c).arrAt 2 cfg2.N = product (V c main_v45) (V c main_arg4) :=
  (dat2 V c).arrAt_eq_of_cover 2 _ (fun t _ => flushed_eq V c t) covered

end Cert.KernelIdeal.MatmulOut

end
-- ==== Proof.RegionLogSoftmax.lean ====
/-
  The fourth pipelined region: a row of biases added to every row of a 500000 x 2 array, then the logarithm of the
  softmax along each row. The grid has 50 points; point t stages rows 10000 t .. 10000 t + 9999 of the array and the
  whole one-row bias array and writes back the same rows of the result. A row's result depends on that row only:
  with z k = input (r, k) + bias (0, k) and M the fold of the maximum over k from the value of the word of minus
  infinity, the entry at (r, q) is (z q - M) - log (sum over k of exp (z k - M)).
-/
import proofs.«140899_j68204080660970_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax

open Cert.KernelIdeal Cert.KernelIdeal.Gen
open Idealize.ShloMosaic Idealize.ShloMosaic.TcCoe Idealize.ShloMosaic.ValueIdx Idealize.SL.Sem
open Idealize.ShloMosaic.Pipeline (Dat)

/-! ## A row's logarithm of the softmax -/

/-- Row r of an n x 2 array with the one-row array added to it. -/
def biasedRow {n : Nat} (a : (⟨2, ![n, 2]⟩ : Shape).Idx → EReal) (b : (⟨2, ![1, 2]⟩ : Shape).Idx → EReal) (r : Fin n) : Fin 2 → EReal :=
  fun k => a (ix2 r k) + b (ix2 (0 : Fin 1) k)

/-- The largest entry of a row, folded from the value of the word of minus infinity. -/
def rowMax (z : Fin 2 → EReal) : EReal :=
  Finset.fold max (Ideal.ofBits .f32 0xFF800000#32) z (Finset.univ : Finset (Fin 2))

/-- The logarithm of the softmax of a row, at column q, computed after the row's largest entry is taken off. -/
def rowLogSoftmax (z : Fin 2 → EReal) (q : Fin 2) : EReal :=
  (z q - rowMax z) - Ideal.log (∑ k : Fin 2, Ideal.exp (z k - rowMax z))

/-- Every row of an n x 2 array, biased, then normalised. -/
def normalised {n : Nat} (a : (⟨2, ![n, 2]⟩ : Shape).Idx → EReal) (b : (⟨2, ![1, 2]⟩ : Shape).Idx → EReal) :
    (⟨2, ![n, 2]⟩ : Shape).Idx → EReal :=
  fun i => rowLogSoftmax (biasedRow a b (i 0)) (i 1)

/-! ## The body's two reductions, kept as columns and spread back over the row -/

/-- The reduced index with the column put back is the index (row, column). -/
theorem lift_row (p : Fin 10000) (k : Fin 2) : reduces_S10000x2_S10000.lift (ix1 p) k = ix2 p k :=
  funext fun a => Fin.ext (by match a with | ⟨0, _⟩ => rfl | ⟨1, _⟩ => rfl)

/-- A column of 10000 values spread over both columns reads, at (p, q), the column's value at p. -/
theorem spread_apply (v : FVec Ideal S10000 .f32) (p : Fin 10000) (q : Fin 2) :
    broadcastTo S10000x2 (shapeCast S10000x1 v shapeCasts_S10000_S10000x1) broadcasts_S10000x1_S10000x2 (ix2 p q) = v (ix1 p) := by
  refine (broadcastTo_apply _ broadcasts_S10000x1_S10000x2 (ix2 p q) (ix2 p (0 : Fin 1)) ?_).trans ?_
  · intro a
    match a with
    | ⟨0, _⟩ => show p.val = if (10000 : Nat) = 1 then 0 else p.val; rw [if_neg (by decide)]
    | ⟨1, _⟩ => show 0 = if (1 : Nat) = 1 then 0 else q.val; rw [if_pos rfl]
  · refine shapeCast_apply v shapeCasts_S10000_S10000x1 (ix2 p (0 : Fin 1)) (ix1 p) ?_
    rw [Shape.rowMajor_val_two, Shape.rowMajor_val_one]
    show p.val = p.val * 1 + 0
    omega

/-- Each row's largest entry, spread over the row. -/
def keepMax (z : FVec Ideal S10000x2 .f32) : FVec Ideal S10000x2 .f32 :=
  broadcastTo S10000x2 (shapeCast S10000x1 (multiReduction .maximumf [1] S10000 z 0xFF800000#32 reduces_S10000x2_S10000 (.inl rfl) rfl)
    shapeCasts_S10000_S10000x1) broadcasts_S10000x1_S10000x2

/-- The logarithm of each row's sum, spread over the row. -/
def keepLogSum (y : FVec Ideal S10000x2 .f32) : FVec Ideal S10000x2 .f32 :=
  broadcastTo S10000x2 (log (shapeCast S10000x1 (multiReduction .add [1] S10000 y 0x00000000#32 reduces_S10000x2_S10000 (.inl rfl) rfl)
    shapeCasts_S10000_S10000x1)) broadcasts_S10000x1_S10000x2

theorem keepMax_apply (z : FVec Ideal S10000x2 .f32) (p : Fin 10000) (q : Fin 2) :
    keepMax z (ix2 p q) = rowMax (fun k => z (ix2 p k)) := by
  unfold keepMax
  refine (spread_apply _ p q).trans ?_
  refine (Ideal.multiReduction_maximumf_single z 0xFF800000#32 reduces_S10000x2_S10000 (.inl rfl) rfl (ix1 p)).trans ?_
  unfold rowMax
  exact congrArg (fun f : Fin 2 → EReal => Finset.fold max (Ideal.ofBits .f32 0xFF800000#32) f (Finset.univ : Finset (Fin 2)))
    (funext fun k => congrArg z (lift_row p k))

theorem keepLogSum_apply (y : FVec Ideal S10000x2 .f32) (p : Fin 10000) (q : Fin 2) :
    keepLogSum y (ix2 p q) = Ideal.log (∑ k : Fin 2, y (ix2 p k)) := by
  unfold keepLogSum
  have hspread : ∀ v : FVec Ideal S10000 .f32,
      broadcastTo S10000x2 (log (shapeCast S10000x1 v shapeCasts_S10000_S10000x1)) broadcasts_S10000x1_S10000x2 (ix2 p q) = Ideal.log (v (ix1 p)) := by
    intro v
    refine (broadcastTo_apply _ broadcasts_S10000x1_S10000x2 (ix2 p q) (ix2 p (0 : Fin 1)) ?_).trans ?_
    · intro a
      match a with
      | ⟨0, _⟩ => show p.val = if (10000 : Nat) = 1 then 0 else p.val; rw [if_neg (by decide)]
      | ⟨1, _⟩ => show 0 = if (1 : Nat) = 1 then 0 else q.val; rw [if_pos rfl]
    · show Ideal.log (shapeCast S10000x1 v shapeCasts_S10000_S10000x1 (ix2 p (0 : Fin 1))) = _
      refine congrArg Ideal.log (shapeCast_apply v shapeCasts_S10000_S10000x1 (ix2 p (0 : Fin 1)) (ix1 p) ?_)
      rw [Shape.rowMajor_val_two, Shape.rowMajor_val_one]
      show p.val = p.val * 1 + 0
      omega
  refine (hspread _).trans (congrArg Ideal.log ?_)
  refine (Ideal.multiReduction_add_single y 0x00000000#32 reduces_S10000x2_S10000 (.inl rfl) rfl (ix1 p)).trans ?_
  exact Finset.sum_congr rfl fun k _ => congrArg y (lift_row p k)

/-- The staged block with the bias row added to each of its rows. -/
def biasedBlock (x0 : Vec Ideal S10000x2 .f32) (x1 : Vec Ideal S1x2 .f32) : FVec Ideal S10000x2 .f32 :=
  addf (F := Ideal) x0 (broadcastTo S10000x2 x1 broadcasts_S1x2_S10000x2)

/-- The body's stored value is those pieces put together. -/
theorem stored_eq (x0 : Vec Ideal S10000x2 .f32) (x1 : Vec Ideal S1x2 .f32) :
    k3_pay1 x0 x1 =
      subf (subf (biasedBlock x0 x1) (keepMax (biasedBlock x0 x1)))
        (keepLogSum (exp (subf (biasedBlock x0 x1) (keepMax (biasedBlock x0 x1))))) := by
  unfold k3_pay1 keepMax keepLogSum biasedBlock
  simp only [shapeCast_self]

/-- A row of the biased block is the block's row with the bias row added. -/
theorem biasedBlock_apply (x0 : Vec Ideal S10000x2 .f32) (x1 : Vec Ideal S1x2 .f32) (p : Fin 10000) (k : Fin 2) :
    biasedBlock x0 x1 (ix2 p k) = biasedRow (n := 10000) x0 x1 p k := by
  unfold biasedBlock biasedRow
  rw [addf_apply, broadcastTo_1b_ab_apply]

/-- The body's stored value at an index of the block: the block's row, biased, normalised. -/
theorem stored_apply (x0 : Vec Ideal S10000x2 .f32) (x1 : Vec Ideal S1x2 .f32) (j : S10000x2.Idx) :
    k3_pay1 x0 x1 j = normalised (n := 10000) x0 x1 j := by
  obtain ⟨p, q, rfl⟩ : ∃ (p : Fin 10000) (q : Fin 2), j = ix2 p q := ⟨j 0, j 1, eq_ix2 j⟩
  have hrow : (fun k => biasedBlock x0 x1 (ix2 p k)) = biasedRow (n := 10000) x0 x1 p :=
    funext (biasedBlock_apply x0 x1 p)
  rw [stored_eq]
  show (biasedBlock x0 x1 (ix2 p q) - keepMax (biasedBlock x0 x1) (ix2 p q))
        - keepLogSum (exp (subf (biasedBlock x0 x1) (keepMax (biasedBlock x0 x1)))) (ix2 p q)
      = rowLogSoftmax (biasedRow (n := 10000) x0 x1 p) q
  rw [keepLogSum_apply, keepMax_apply, hrow, biasedBlock_apply]
  unfold rowLogSoftmax
  refine congrArg (fun s : EReal => (biasedRow (n := 10000) x0 x1 p q - rowMax (biasedRow (n := 10000) x0 x1 p)) - Ideal.log s) ?_
  refine Finset.sum_congr rfl fun k _ => ?_
  show Ideal.exp (biasedBlock x0 x1 (ix2 p k) - keepMax (biasedBlock x0 x1) (ix2 p k)) = _
  rw [keepMax_apply, hrow, biasedBlock_apply]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The two input arrays as the region finds them, at their literal types. -/
abbrev scores (c : Dev nD) : FVec Ideal S500000x2 .f32 := V c main_v59
abbrev bias (c : Dev nD) : FVec Ideal S1x2 .f32 := V c main_v60

/-- The index maps over the grid: the data window and the result window sit at block (t, 0), the bias window at (0, 0). -/
theorem where_blocks : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block of rows is some point's. -/
theorem block_of_rows : ∀ q : Fin 50, ∃ t : Fin cfg3.N, win3_2.index t = ![q.val, 0] :=
  (by decide +kernel : ∀ q : Fin 50, ∃ t : Fin grid3.N, win3_2.index t = ![q.val, 0])

/-- What point t writes back is block t of `normalised` of the arrays as the region finds them. -/
theorem flushed_eq (c : Dev nD) (t : Fin cfg3.N) :
    (dat3 V c).flushed 2 t = ((cfg3.win 2).blk t).view.read (Elt Ideal) (normalised (n := 500000) (V c main_v59) (V c main_v60)) := by
  show (cfg3.win 2).cut (grid3.coords t) ((dat3 V c).after 2 t) = _
  rw [after3_2]
  unfold out3_2
  rw [View.canon_unit_zero origin]
  simp only [View.ld_unit_zero (S := S10000x2) origin, View.ld_unit_zero (S := S1x2) origin]
  obtain ⟨e0, e1, e2, e3, e4, e5⟩ := where_blocks t
  funext j
  refine (stored_apply (iblk3 V c 0 t) (iblk3 V c 1 t) j).trans ?_
  have hj1 : (j 1).val < 2 := (j 1).isLt
  have hrow : biasedRow (n := 10000) (iblk3 V c 0 t) (iblk3 V c 1 t) (j 0)
      = biasedRow (n := 500000) (scores V c) (bias V c) ((((cfg3.win 2).blk t).view.emb j) 0) := by
    funext k
    show scores V c (((cfg3.win 0).blk t).view.emb (ix2 (j 0) k)) + bias V c (((cfg3.win 1).blk t).view.emb (ix2 (0 : Fin 1) k))
       = scores V c (ix2 ((((cfg3.win 2).blk t).view.emb j) 0) k) + bias V c (ix2 (0 : Fin 1) k)
    have h0 : ((cfg3.win 0).blk t).view.emb (ix2 (j 0) k) = ix2 ((((cfg3.win 2).blk t).view.emb j) 0) k := by
      funext a; apply Fin.ext
      match a with
      | ⟨0, _⟩ => show win3_0.index t (0 : Fin 2) * 10000 + 1 * (j 0).val = win3_2.index t (0 : Fin 2) * 10000 + 1 * (j 0).val; omega
      | ⟨1, _⟩ => show win3_0.index t (1 : Fin 2) * 2 + 1 * k.val = k.val; omega
    have h1 : ((cfg3.win 1).blk t).view.emb (ix2 (0 : Fin 1) k) = ix2 (0 : Fin 1) k := by
      funext a; apply Fin.ext
      match a with
      | ⟨0, _⟩ => show win3_1.index t (0 : Fin 2) * 1 + 1 * 0 = 0; omega
      | ⟨1, _⟩ => show win3_1.index t (1 : Fin 2) * 2 + 1 * k.val = k.val; omega
    rw [h0, h1]
    rfl
  have hcol : (j 1 : Fin 2) = ((((cfg3.win 2).blk t).view.emb j) 1 : Fin 2) := by
    apply Fin.ext
    show (j 1).val = win3_2.index t (1 : Fin 2) * 2 + 1 * (j 1).val
    omega
  show rowLogSoftmax (biasedRow (n := 10000) (iblk3 V c 0 t) (iblk3 V c 1 t) (j 0)) (j 1)
     = rowLogSoftmax (biasedRow (n := 500000) (scores V c) (bias V c) ((((cfg3.win 2).blk t).view.emb j) 0)) ((((cfg3.win 2).blk t).view.emb j) 1)
  rw [hrow, hcol]

/-- An index of the result array lies in point t's block iff each coordinate lies in the block's range. -/
theorem mem_block (t : Fin cfg3.N) (i : S500000x2.Idx) :
    i ∈ ((cfg3.win 2).blk t).view.set ↔ ∀ a : Fin 2, win3_2.index t a * S10000x2.size a ≤ (i a).val ∧ (i a).val < win3_2.index t a * S10000x2.size a + S10000x2.size a := by
  show i ∈ ((View.whole main_v61).slice (win3_2.rect t)).set ↔ _
  rw [View.set_slice_whole, Rect.mem_set_unit]
  exact Iff.rfl

/-- The blocks tile the result array: row r lies in the block of point r / 10000. -/
theorem covered (i : S500000x2.Idx) : ∃ t : Fin cfg3.N, (cfg3.win 2).flush t = true ∧ i ∈ ((cfg3.win 2).blk t).view.set := by
  have hi0 : (i 0).val < 500000 := (i 0).isLt
  have hi1 : (i 1).val < 2 := (i 1).isLt
  obtain ⟨t, ht⟩ := block_of_rows ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 2 ≤ (i 1).val ∧ (i 1).val < win3_2.index t (1 : Fin 2) * 2 + 2; omega

/-- The result array after the region. -/
theorem result (c : Dev nD) : (dat3 V c).arrAt 2 cfg3.N = normalised (n := 500000) (V c main_v59) (V c main_v60) :=
  (dat3 V c).arrAt_eq_of_cover 2 _ (fun t _ => flushed_eq V c t) covered

end Cert.KernelIdeal.LogSoftmax

end
-- ==== Proof.StageBridge.lean ====
/-
  Each region's result, as a function of its input arrays, is the reference's stage over the extended reals.
  The two matrix products are the host's dot products: both are the sum over the inner index of the products of the
  entries. The rectified sum is the host's sum with the bias broadcast twice, then the maximum with a splat of zero.
  For the logarithm of the softmax the host first takes each row's maximum as a reduction from minus infinity and then
  once more the maximum of that with minus infinity, which changes nothing since a fold of the maximum from a value is
  at least that value; and its sum of exponentials starts from the value of the zero word, which is zero.
-/
import proofs.«140899_j68204080660970_1_alg».proof.Proof.RefRead
import proofs.«140899_j68204080660970_1_alg».proof.Proof.RegionMatmulIn
import proofs.«140899_j68204080660970_1_alg».proof.Proof.RegionBiasRelu
import proofs.«140899_j68204080660970_1_alg».proof.Proof.RegionMatmulOut
import proofs.«140899_j68204080660970_1_alg».proof.Proof.RegionLogSoftmax
import Idealize.ShloMosaic.Lib.ValueLayout
import Mathlib.Data.Finset.Fold

set_option maxRecDepth 16384

noncomputable section

namespace Cert.KernelIdeal.Bridge

open Cert.KernelIdeal
open Idealize.ShloMosaic Idealize.ShloMosaic.TcCoe Idealize.ShloMosaic.ValueIdx
open Cert.ReferenceIdeal.ReadP
open Cert.KernelIdeal.Gen (shapeCasts_S16_S1x16 shapeCasts_S2_S1x2)

variable (x0 : (⟨S500000x1, .f32⟩ : BufTy).Contents (Elt Ideal)) (x1 : (⟨S2x8000000, .i32⟩ : BufTy).Contents (Elt Ideal))
  (x2 : (⟨S1x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- The first region's product is the reference's first dot product. -/
theorem product_in : MatmulIn.product x0 x2 = val_main_v30 (F := Ideal) x0 x2 := by
  funext i
  refine Eq.trans ?_ (val_main_v30_apply x0 x2 i).symm
  show (∑ k : Fin 1, x0 (ix2 (i 0) k) * x2 (ix2 k (i 1))) = ∑ k : Fin 1, x0 (lidx_main_v30 i k) * x2 (ridx_main_v30 i k)
  refine Finset.sum_congr rfl fun k _ => ?_
  have el : lidx_main_v30 i k = ix2 (i 0) k :=
    funext fun a => Fin.ext (by match a with | ⟨0, _⟩ => rfl | ⟨1, _⟩ => rfl)
  have er : ridx_main_v30 i k = ix2 k (i 1) :=
    funext fun a => Fin.ext (by match a with | ⟨0, _⟩ => rfl | ⟨1, _⟩ => rfl)
  rw [el, er]
  rfl

/-- The third region's product of the reference's hidden features is the reference's second dot product. -/
theorem product_out :
    MatmulOut.product (val_main_v47 (F := Ideal) x0 x1 x2 x3) x4 = val_main_v74 (F := Ideal) x0 x1 x2 x3 x4 := by
  funext i
  refine Eq.trans ?_ (val_main_v74_apply x0 x1 x2 x3 x4 i).symm
  show (∑ k : Fin 16, val_main_v47 (F := Ideal) x0 x1 x2 x3 (ix2 (i 0) k) * x4 (ix2 k (i 1)))
     = ∑ k : Fin 16, val_main_v47 (F := Ideal) x0 x1 x2 x3 (lidx_main_v74 i k) * x4 (ridx_main_v74 i k)
  refine Finset.sum_congr rfl fun k _ => ?_
  have el : lidx_main_v74 i k = ix2 (i 0) k :=
    funext fun a => Fin.ext (by match a with | ⟨0, _⟩ => rfl | ⟨1, _⟩ => rfl)
  have er : ridx_main_v74 i k = ix2 k (i 1) :=
    funext fun a => Fin.ext (by match a with | ⟨0, _⟩ => rfl | ⟨1, _⟩ => rfl)
  rw [el, er]
  rfl

/-- The second region's result on the reference's aggregated array and the bias as one row is the reference's hidden features. -/
theorem rectified_eq :
    BiasRelu.rectified (val_main_v43 (F := Ideal) x0 x1 x2) (shapeCast S1x16 x3 shapeCasts_S16_S1x16)
      = val_main_v47 (F := Ideal) x0 x1 x2 x3 := by
  funext i
  obtain ⟨p, q, rfl⟩ : ∃ (p : Fin 500000) (q : Fin 16), i = ix2 p q := ⟨i 0, i 1, eq_ix2 i⟩
  refine Eq.trans ?_ (val_main_v47_apply (F := Ideal) x0 x1 x2 x3 (ix2 p q)).symm
  rw [val_main_v46_apply, val_main_v45_apply, val_main_v44_apply, val_main_call1_v0_apply, val_main_call1_cst_apply]
  have e1 : shapeCast S1x16 x3 shapeCasts_S16_S1x16 (ix2 (0 : Fin 1) q) = x3 (ix1 q) :=
    shapeCast_a_1a_apply x3 shapeCasts_S16_S1x16 0 q
  have e2 : idx_main_v44 (idx_main_v45 (ix2 p q)) = ix1 q :=
    funext fun a => Fin.ext (by match a with | ⟨0, _⟩ => rfl)
  show max (val_main_v43 (F := Ideal) x0 x1 x2 (ix2 p q) + shapeCast S1x16 x3 shapeCasts_S16_S1x16 (ix2 (0 : Fin 1) q)) (Ideal.ofBits .f32 0x00000000#32)
     = max (val_main_v43 (F := Ideal) x0 x1 x2 (ix2 p q) + x3 (idx_main_v44 (idx_main_v45 (ix2 p q)))) (Ideal.ofBits .f32 0x00000000#32)
  rw [e1, e2]

/-! ## The logarithm of the softmax -/

section LogSoftmax

open Cert.KernelIdeal.LogSoftmax

/-- The reference's biased scores along row p are the row the region normalises. -/
theorem scores_row (p : Fin 500000) (k : Fin 2) :
    val_main_v90 (F := Ideal) x0 x1 x2 x3 x4 x5 (ix2 p k)
      = biasedRow (n := 500000) (val_main_v87 (F := Ideal) x0 x1 x2 x3 x4) (shapeCast S1x2 x5 shapeCasts_S2_S1x2) p k := by
  rw [val_main_v90_apply, val_main_v89_apply, val_main_v88_apply]
  have e1 : shapeCast S1x2 x5 shapeCasts_S2_S1x2 (ix2 (0 : Fin 1) k) = x5 (ix1 k) :=
    shapeCast_a_1a_apply x5 shapeCasts_S2_S1x2 0 k
  have e2 : idx_main_v88 (idx_main_v89 (ix2 p k)) = ix1 k :=
    funext fun a => Fin.ext (by match a with | ⟨0, _⟩ => rfl)
  show val_main_v87 (F := Ideal) x0 x1 x2 x3 x4 (ix2 p k) + x5 (idx_main_v88 (idx_main_v89 (ix2 p k)))
     = val_main_v87 (F := Ideal) x0 x1 x2 x3 x4 (ix2 p k) + shapeCast S1x2 x5 shapeCasts_S2_S1x2 (ix2 (0 : Fin 1) k)
  rw [e1, e2]

/-- A fold of the maximum from a value is at least that value. -/
theorem le_fold_max_init (b : EReal) (z : Fin 2 → EReal) : b ≤ Finset.fold max b z (Finset.univ : Finset (Fin 2)) :=
  (Finset.le_fold_max b).mpr (Or.inl le_rfl)

/-- The reference's row maximum: the reduction from minus infinity, and the maximum of that with minus infinity once more. -/
theorem row_max (p : Fin 500000) :
    val_main_call3_v2 (F := Ideal) x0 x1 x2 x3 x4 x5 (ix1 p)
      = rowMax (biasedRow (n := 500000) (val_main_v87 (F := Ideal) x0 x1 x2 x3 x4) (shapeCast S1x2 x5 shapeCasts_S2_S1x2) p) := by
  have hR : Cert.ReferenceIdeal.S500000x2.Reduces [1] Cert.ReferenceIdeal.S500000 := by decide
  have hlift : ∀ k : Fin 2, hR.lift (ix1 p) k = ix2 p k := fun k =>
    funext fun a => Fin.ext (by match a with | ⟨0, _⟩ => rfl | ⟨1, _⟩ => rfl)
  have h0 : val_main_call3_v0 (F := Ideal) x0 x1 x2 x3 x4 x5 (ix1 p)
      = rowMax (biasedRow (n := 500000) (val_main_v87 (F := Ideal) x0 x1 x2 x3 x4) (shapeCast S1x2 x5 shapeCasts_S2_S1x2) p) := by
    unfold val_main_call3_v0
    refine (Host.reduce_eq_fold_single (FloatOps.maximumf (F := Ideal) (φ := .f32)) (val_main_v90 (F := Ideal) x0 x1 x2 x3 x4 x5)
      (val_main_call3_cst (F := Ideal)) Cert.ReferenceIdeal.Gen.reducesTo_S500000x2_S500000_d1 hR Cert.ReferenceIdeal.Gen.h_S_ (ix1 p)).trans ?_
    unfold rowMax
    show Finset.fold max (Ideal.ofBits .f32 0xFF800000#32)
        (fun k : Fin 2 => val_main_v90 (F := Ideal) x0 x1 x2 x3 x4 x5 (hR.lift (ix1 p) k)) (Finset.univ : Finset (Fin 2)) = _
    exact congrArg (fun f : Fin 2 → EReal => Finset.fold max (Ideal.ofBits .f32 0xFF800000#32) f (Finset.univ : Finset (Fin 2)))
      (funext fun k => (congrArg (val_main_v90 (F := Ideal) x0 x1 x2 x3 x4 x5) (hlift k)).trans (scores_row x0 x1 x2 x3 x4 x5 p k))
  rw [val_main_call3_v2_apply, val_main_call3_v1_apply, val_main_call3_cst_0_apply, h0]
  exact max_eq_right (le_fold_max_init _ _)

/-- The reference's shifted scores along row p. -/
theorem shifted_row (p : Fin 500000) (k : Fin 2) :
    val_main_call3_v5 (F := Ideal) x0 x1 x2 x3 x4 x5 (ix2 p k)
      = biasedRow (n := 500000) (val_main_v87 (F := Ideal) x0 x1 x2 x3 x4) (shapeCast S1x2 x5 shapeCasts_S2_S1x2) p k
        - rowMax (biasedRow (n := 500000) (val_main_v87 (F := Ideal) x0 x1 x2 x3 x4) (shapeCast S1x2 x5 shapeCasts_S2_S1x2) p) := by
  have e : idx_main_call3_v3 (idx_main_call3_v4 (ix2 p k)) = ix1 p :=
    funext fun a => Fin.ext (by match a with | ⟨0, _⟩ => rfl)
  rw [val_main_call3_v5_apply, val_main_call3_v4_apply, val_main_call3_v3_apply, e, row_max, scores_row, Ideal.subf_def]

/-- The normalised array at (p, q) is row p's logarithm of the softmax at column q. -/
theorem normalised_apply {n : Nat} (a : (⟨2, ![n, 2]⟩ : Shape).Idx → EReal) (b : (⟨2, ![1, 2]⟩ : Shape).Idx → EReal) (p : Fin n) (q : Fin 2) :
    normalised a b (ix2 p q)
      = (biasedRow a b p q - rowMax (biasedRow a b p)) - Ideal.log (∑ k : Fin 2, Ideal.exp (biasedRow a b p k - rowMax (biasedRow a b p))) := rfl

/-- The region's normalised rows of the reference's aggregated array and the bias as one row are the reference's result. -/
theorem normalised_eq :
    normalised (n := 500000) (val_main_v87 (F := Ideal) x0 x1 x2 x3 x4) (shapeCast S1x2 x5 shapeCasts_S2_S1x2)
      = val_main_v91 (F := Ideal) x0 x1 x2 x3 x4 x5 := by
  funext i
  obtain ⟨p, q, rfl⟩ : ∃ (p : Fin 500000) (q : Fin 2), i = ix2 p q := ⟨i 0, i 1, eq_ix2 i⟩
  refine Eq.trans ?_ (val_main_v91_apply (F := Ideal) x0 x1 x2 x3 x4 x5 (ix2 p q)).symm
  have e8 : idx_main_call3_v8 (idx_main_call3_v10 (ix2 p q)) = ix1 p :=
    funext fun a => Fin.ext (by match a with | ⟨0, _⟩ => rfl)
  have e7 : ∀ k : Fin 2, idx_main_call3_v7 (ix1 p) k = ix2 p k := fun k =>
    funext fun a => Fin.ext (by match a with | ⟨0, _⟩ => rfl | ⟨1, _⟩ => rfl)
  have hsum : val_main_call3_v7 (F := Ideal) x0 x1 x2 x3 x4 x5 (ix1 p)
      = ∑ k : Fin 2, Ideal.exp (biasedRow (n := 500000) (val_main_v87 (F := Ideal) x0 x1 x2 x3 x4) (shapeCast S1x2 x5 shapeCasts_S2_S1x2) p k
          - rowMax (biasedRow (n := 500000) (val_main_v87 (F := Ideal) x0 x1 x2 x3 x4) (shapeCast S1x2 x5 shapeCasts_S2_S1x2) p)) := by
    rw [val_main_call3_v7_apply, val_main_call3_cst_1_apply]
    show Ideal.ofBits .f32 0x00000000#32 + _ = _
    rw [Ideal.ofBits_zero_f32, zero_add]
    refine Finset.sum_congr rfl fun k _ => ?_
    rw [e7 k, val_main_call3_v6_apply, shifted_row, Ideal.hostUnary_exp_def]
  rw [val_main_call3_v10_apply, val_main_call3_v9_apply, val_main_call3_v8_apply, e8, hsum, shifted_row,
    Ideal.hostUnary_log_def, Ideal.subf_def]
  exact normalised_apply _ _ p q

end LogSoftmax

end Cert.KernelIdeal.Bridge

end
-- ==== Proof.KernelResult.lean ====
/-
  The kernel's program ends with its result array at the reference's result stage of the launched arguments, over
  the extended reals. The contents of the core's buffers at the boundaries are followed from the launch: the edge
  lists and coefficients; the first product (a region); the aggregation of the first layer (host operations); the
  bias and rectifier (a region); the second product (a region); the aggregation of the second layer (host
  operations); the bias and the logarithm of the softmax (a region). At each region its result array is the region's
  function of what its input buffers hold on entry, and that function of the reference's earlier stages is the
  reference's next stage.
-/
import proofs.«140899_j68204080660970_1_alg».proof.Proof.StretchAgg
import proofs.«140899_j68204080660970_1_alg».proof.Proof.StageBridge
import proofs.«140899_j68204080660970_1_alg».proof.Proof.KernelRun

set_option maxRecDepth 16384

noncomputable section

namespace Cert.KernelIdeal.Result

open Cert.KernelIdeal Cert.KernelIdeal.Gen
open Idealize.ShloMosaic Idealize.ShloMosaic.TcCoe Idealize.SL.Sem
open Cert.ReferenceIdeal.ReadP (val_main_v30 val_main_v47 val_main_v74 val_main_v91)

variable (m : (ℓ : Loc nD τ sig) → Buf (Elt Ideal) ℓ) (ρ : Dev nD → PrngReg) (c : Dev nD)

/-- After the first region: the product of the node features and the first weights. -/
theorem after_product_in : W4 m ρ c (Proc.devRef .tc main_v30)
    = val_main_v30 (F := Ideal) (m ((c : Thread nD τ).loc main_arg0)) (m ((c : Thread nD τ).loc main_arg2)) := by
  refine (W4_arr m ρ c 2).trans ?_
  refine (MatmulIn.result (V3 m ρ) c).trans ?_
  show MatmulIn.product (W3 m ρ c (Proc.devRef .tc main_arg0)) (W3 m ρ c (Proc.devRef .tc main_arg2)) = _
  rw [Stretch.entry_arg0, Stretch.entry_arg2]
  exact Bridge.product_in _ _

/-- After the second region: the first layer's hidden features. -/
theorem after_rectifier : W6 m ρ c (Proc.devRef .tc main_v45)
    = val_main_v47 (F := Ideal) (m ((c : Thread nD τ).loc main_arg0)) (m ((c : Thread nD τ).loc main_arg1))
        (m ((c : Thread nD τ).loc main_arg2)) (m ((c : Thread nD τ).loc main_arg3)) := by
  refine (W6_arr m ρ c 2).trans ?_
  refine (BiasRelu.result (V5 m ρ) c).trans ?_
  show BiasRelu.rectified (W5 m ρ c (Proc.devRef .tc main_v43)) (W5 m ρ c (Proc.devRef .tc main_v44)) = _
  rw [Stretch.aggregated_in m ρ c (after_product_in m ρ c), Stretch.bias_row_in]
  exact Bridge.rectified_eq _ _ _ _

/-- The second weights reach the third region as launched. -/
theorem weights_out : W6 m ρ c (Proc.devRef .tc main_arg4) = m ((c : Thread nD τ).loc main_arg4) :=
  (W6_of_ne m ρ c main_arg4 (by decide)).trans
    ((Stretch.keep_hostOps1 m ρ c main_arg4 (.inr (.inr (.inr (.inl rfl))))).trans
      ((W4_of_ne m ρ c main_arg4 (by decide)).trans (Stretch.entry_arg4 m ρ c)))

/-- After the third region: the product of the hidden features and the second weights. -/
theorem after_product_out : W7 m ρ c (Proc.devRef .tc main_v46)
    = val_main_v74 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W7_arr m ρ c 2).trans ?_
  refine (MatmulOut.result (V6 m ρ) c).trans ?_
  show MatmulOut.product (W6 m ρ c (Proc.devRef .tc main_v45)) (W6 m ρ c (Proc.devRef .tc main_arg4)) = _
  rw [after_rectifier, weights_out]
  exact Bridge.product_out _ _ _ _ _

/-- After the fourth region: the program's result. -/
theorem result_value : W9 m ρ c (Proc.devRef .tc main_v61)
    = val_main_v91 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W9_arr m ρ c 2).trans ?_
  refine (LogSoftmax.result (V8 m ρ) c).trans ?_
  show LogSoftmax.normalised (n := 500000) (W8 m ρ c (Proc.devRef .tc main_v59)) (W8 m ρ c (Proc.devRef .tc main_v60)) = _
  rw [Stretch.aggregated_out m ρ c (after_product_out m ρ c), Stretch.bias_row_out]
  exact Bridge.normalised_eq _ _ _ _ _ _

/-- The kernel's program, run from any memory: it terminates, nothing faulting, with the result array at the
    reference's result stage of the launched arguments and the arguments as launched. -/
theorem run : θ_run defs (onTc (τ := τ) (main (F := Ideal))) ⟨m, fun _ => 0, ρ⟩ (fun r => ∀ c : Dev nD,
      r.2.mem ((c.tc : Thread nD τ).loc main_v61)
        = val_main_v91 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (GenRun.run_result m ρ)

end Cert.KernelIdeal.Result

end
-- ==== Proof.lean ====
/-
  A two-layer graph convolution (self-loops added, symmetric degree normalisation), a rectifier between the layers
  and the logarithm of the softmax at the end, on 500000 nodes and 8000000 edges. The kernel's program runs the two
  dense products, the bias with the rectifier, and the bias with the logarithm of the softmax as four pipelined
  regions over blocks of 10000 rows, and the gathers and scatter-adds along the edges as host operations; the
  reference is the same network in host operations throughout.

  Over the extended reals the two programs compute one function of the arguments. The host operations on the edges
  are literally the same in both. Each product on the matrix unit into a zero accumulator, its operands narrowed
  first, is the host's dot product: the sum over the inner index of the products of the entries. The rectified sum and
  the shifted logarithm of the sum of exponentials are the host's, operation by operation; the host's second maximum
  with minus infinity and its sum's start from zero change nothing. No law used here needs the inputs to be finite.

  The frames of the two kernel programs are the generated ones; the reference's frame is its run with the result
  dropped. The ideal pass rewrote nothing in the kernel's program, so there is nothing to preserve.
-/
import proofs.«140899_j68204080660970_1_alg».proof.Defs
import proofs.«140899_j68204080660970_1_alg».proof.Proof.Gen.Kernel
import proofs.«140899_j68204080660970_1_alg».proof.Proof.Gen.Kernel.Frame
import proofs.«140899_j68204080660970_1_alg».proof.Proof.Gen.KernelIdeal
import proofs.«140899_j68204080660970_1_alg».proof.Proof.Gen.KernelIdeal.Frame
import proofs.«140899_j68204080660970_1_alg».proof.Proof.Gen.ReferenceIdeal
import proofs.«140899_j68204080660970_1_alg».proof.Proof.Gen.Pre_finite_inputs
import proofs.«140899_j68204080660970_1_alg».proof.Proof.RefRun
import proofs.«140899_j68204080660970_1_alg».proof.Proof.RefRead
import proofs.«140899_j68204080660970_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the reference's result stage of the arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v91_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
